-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x32 : Shape := ⟨2, ![4096, 32]⟩
abbrev S32x32 : Shape := ⟨2, ![32, 32]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  main_v18

def fn {F : FTy → Type} [FloatOps F] (main_arg0 : FVec F S4096x4096 .f32) (main_arg1 : FVec F S4096x32 .f32) (main_arg2 : FVec F S4096x4096 .f32) (main_arg3 : FVec F S32x32 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_v13 main_v16
-- ==== Kernel.lean ====
abbrev S4096x4096 : Shape := ⟨2, ![4096, 4096]⟩
abbrev S4096x32 : Shape := ⟨2, ![4096, 32]⟩
abbrev S32x32 : Shape := ⟨2, ![32, 32]⟩
abbrev S32x128x32 : Shape := ⟨3, ![32, 128, 32]⟩
abbrev S512x4096 : Shape := ⟨2, ![512, 4096]⟩
abbrev S512x32 : Shape := ⟨2, ![512, 32]⟩
abbrev S256x4096 : Shape := ⟨2, ![256, 4096]⟩
abbrev S256x32 : Shape := ⟨2, ![256, 32]⟩
abbrev S512x256 : Shape := ⟨2, ![512, 256]⟩
abbrev S512x32x128 : Shape := ⟨3, ![512, 32, 128]⟩
abbrev S512x32x1 : Shape := ⟨3, ![512, 32, 1]⟩
abbrev S256x32x128 : Shape := ⟨3, ![256, 32, 128]⟩
abbrev S256x32x1 : Shape := ⟨3, ![256, 32, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x32, .f32⟩
  | .hbm, ⟨2, _⟩ => ⟨S4096x4096, .f32⟩
  | .hbm, ⟨3, _⟩ => ⟨S32x32, .f32⟩
  | .hbm, ⟨4, _⟩ => ⟨S4096x4096, .bf16⟩
  | .hbm, ⟨5, _⟩ => ⟨S4096x4096, .bf16⟩
  | .hbm, ⟨6, _⟩ => ⟨S32x128x32, .f32⟩
  | .hbm, ⟨7, _⟩ => ⟨S4096x32, .f32⟩
  | .hbm, ⟨8, _⟩ => ⟨S4096x4096, .bf16⟩
  | .local _ .vmem, ⟨0, _⟩ => ⟨S512x4096, .bf16⟩
  | .local _ .vmem, ⟨1, _⟩ => ⟨S512x4096, .bf16⟩
  | .local _ .vmem, ⟨2, _⟩ => ⟨S512x32, .f32⟩
  | .local _ .vmem, ⟨3, _⟩ => ⟨S512x32, .f32⟩
  | .local _ .vmem, ⟨4, _⟩ => ⟨S256x4096, .bf16⟩
  | .local _ .vmem, ⟨5, _⟩ => ⟨S256x4096, .bf16⟩
  | .local _ .vmem, ⟨6, _⟩ => ⟨S256x32, .f32⟩
  | .local _ .vmem, ⟨7, _⟩ => ⟨S256x32, .f32⟩
  | .local _ .vmem, ⟨8, _⟩ => ⟨S512x256, .bf16⟩
  | .local _ .vmem, ⟨9, _⟩ => ⟨S512x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  bcast_S32x32_S32x128x32_0_2 : S32x32.BroadcastsInDim S32x128x32 (![0, 2] : Fin 2 → Fin S32x128x32.rank)
  shapeCasts_S32x128x32_S4096x32 : S32x128x32.ShapeCasts S4096x32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S512x4096_S512x32x128 : S512x4096.ShapeCasts S512x32x128
  inb_S512x32_S512x32_0_0 : ∀ a, (![0, 0] : Fin 2 → Nat) a + S512x32.size a ≤ S512x32.size a
  h_S512x32 : 0 < S512x32.numel
  shapeCasts_S512x32_S512x32x1 : S512x32.ShapeCasts S512x32x1
  broadcasts_S512x32x1_S512x32x128 : S512x32x1.Broadcasts S512x32x128
  shapeCasts_S512x32x128_S512x4096 : S512x32x128.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S4096x32.size a
  hwx0_1 : ∀ i : grid0.Coords, EltTy.bits .f32 = 32 ∨ (Rect.block (s := S4096x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S4096x32.size a
  hwx0_3 : ∀ i : grid0.Coords, EltTy.bits .f32 = 32 ∨ (Rect.block (s := S4096x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x4096.size a
  hwx0_4 : ∀ i : grid0.Coords, EltTy.bits .bf16 = 32 ∨ (Rect.block (s := S4096x4096) S512x256.size (cc0_transform_4 i) (hinb0_4 i)).WholeWords (EltTy.packing .bf16)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x32 : Shape := ⟨2, ![4096, 32]⟩
abbrev S32x32 : Shape := ⟨2, ![32, 32]⟩
abbrev S4096x32x128 : Shape := ⟨3, ![4096, 32, 128]⟩
abbrev S32x128x32 : Shape := ⟨3, ![32, 128, 32]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x32, .f32⟩
  | .hbm, ⟨2, _⟩ => ⟨S4096x4096, .f32⟩
  | .hbm, ⟨3, _⟩ => ⟨S32x32, .f32⟩
  | .hbm, ⟨4, _⟩ => ⟨S4096x32x128, .f32⟩
  | .hbm, ⟨5, _⟩ => ⟨S4096x4096, .f32⟩
  | .hbm, ⟨6, _⟩ => ⟨S4096x4096, .f32⟩
  | .hbm, ⟨7, _⟩ => ⟨S32x128x32, .f32⟩
  | .hbm, ⟨8, _⟩ => ⟨S4096x32, .f32⟩
  | .hbm, ⟨9, _⟩ => ⟨S4096x32x128, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  bcast_S32x32_S32x128x32_0_2 : S32x32.BroadcastsInDim S32x128x32 (![0, 2] : Fin 2 → Fin S32x128x32.rank)
  shapeCasts_S32x128x32_S4096x32 : S32x128x32.ShapeCasts S4096x32
  bitsLt_bf16_f32 : FTy.bits .bf16 < FTy.bits .f32
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.BlockScale.lean ====
/-
  The block-scaled product, entry by entry.

  Activations x [4096 × 4096] carry one scale per row and per group of 128 consecutive positions of the shared axis
  (xs [4096 × 32]); weights w [4096 × 4096] carry one scale per group of 128 rows and per group of 128 positions
  (ws [32 × 32]). The result entry (r, v) is

      ∑ k < 4096,  (x (r, k) · xs (r, k / 128)) · (w (v, k) · ws (v / 128, k / 128)).

  This file states that function, and reads at one entry the two ways a scale array is spread over the shared axis:
  a row-block [A × 4096] cut into [A × 32 × 128], multiplied by the scales [A × 32] repeated along a new last axis, and
  laid flat again; and the scales repeated first ([A × 32] → [A × 32 × 128] → [A × 4096]) and multiplied afterwards.
  Both give x (p, k) · s (p, k / 128).
-/
import Idealize.ShloMosaic.PureOps.Ideal.Laws
import Idealize.ShloMosaic.Lib.ValueIdx
import Idealize.ShloMosaic.Lib.Pipeline.Value

noncomputable section

open scoped BigOperators

namespace Cert.BlockScale

open Idealize.ShloMosaic Idealize.ShloMosaic.ValueIdx

/-- The group of 128 consecutive positions a position of a 4096-long axis lies in. -/
abbrev grp (k : Fin 4096) : Fin 32 := ⟨k.val / 128, by have := k.isLt; omega⟩

/-- The place of a position inside its group. -/
abbrev lane (k : Fin 4096) : Fin 128 := ⟨k.val % 128, Nat.mod_lt _ (by decide)⟩

/-- The block-scaled product of the rows of `x` with the rows of `w`. -/
def scaledProduct (x : FVec Ideal ⟨2, ![4096, 4096]⟩ .f32) (xs : FVec Ideal ⟨2, ![4096, 32]⟩ .f32)
    (w : FVec Ideal ⟨2, ![4096, 4096]⟩ .f32) (ws : FVec Ideal ⟨2, ![32, 32]⟩ .f32) :
    FVec Ideal ⟨2, ![4096, 4096]⟩ .bf16 :=
  fun i => ∑ k : Fin 4096,
    (x (ix2 (i 0) k) * xs (ix2 (i 0) (grp k))) * (w (ix2 (i 1) k) * ws (ix2 (grp (i 1)) (grp k)))

variable {A : Nat}

/-- Row-major positions: entry (p, g, l) of [A × 32 × 128] is entry (p, 128 g + l) of [A × 4096]. -/
theorem pos_flat (p : Fin A) (k : Fin 4096) :
    ((⟨3, ![A, 32, 128]⟩ : Shape).rowMajor (ix3 p (grp k) (lane k))).val
      = ((⟨2, ![A, 4096]⟩ : Shape).rowMajor (ix2 p k)).val := by
  rw [Shape.rowMajor_val_three, Shape.rowMajor_val_two]
  show (p.val * 32 + k.val / 128) * 128 + k.val % 128 = p.val * 4096 + k.val
  omega

/-- Cutting the shared axis into groups: the [A × 32 × 128] view of a row-block at (p, g, l) is the block at (p, 128 g + l). -/
theorem split_apply {α : Type} (x : (⟨2, ![A, 4096]⟩ : Shape).Idx → α)
    (h : (⟨2, ![A, 4096]⟩ : Shape).ShapeCasts ⟨3, ![A, 32, 128]⟩) (p : Fin A) (k : Fin 4096) :
    shapeCast ⟨3, ![A, 32, 128]⟩ x h (ix3 p (grp k) (lane k)) = x (ix2 p k) :=
  shapeCast_apply x h _ _ (pos_flat p k).symm

/-- Laying the groups flat again: the [A × 4096] view at (p, k) is the grouped array at (p, k / 128, k mod 128). -/
theorem flat_apply {α : Type} (y : (⟨3, ![A, 32, 128]⟩ : Shape).Idx → α)
    (h : (⟨3, ![A, 32, 128]⟩ : Shape).ShapeCasts ⟨2, ![A, 4096]⟩) (p : Fin A) (k : Fin 4096) :
    shapeCast ⟨2, ![A, 4096]⟩ y h (ix2 p k) = y (ix3 p (grp k) (lane k)) :=
  shapeCast_apply y h _ _ (pos_flat p k)

/-- A scale array given a unit last axis and repeated along it: entry (p, g, l) is the scale (p, g). -/
theorem spread_unit_apply {α : Type} (s : (⟨2, ![A, 32]⟩ : Shape).Idx → α)
    (h2 : (⟨2, ![A, 32]⟩ : Shape).ShapeCasts ⟨3, ![A, 32, 1]⟩)
    (h3 : (⟨3, ![A, 32, 1]⟩ : Shape).Broadcasts ⟨3, ![A, 32, 128]⟩) (p : Fin A) (g : Fin 32) (l : Fin 128) :
    broadcastTo ⟨3, ![A, 32, 128]⟩ (shapeCast ⟨3, ![A, 32, 1]⟩ s h2) h3 (ix3 p g l) = s (ix2 p g) := by
  rw [broadcastTo_apply _ h3 (ix3 p g l) (ix3 p g (0 : Fin 1)) (fun a => by
    match a with
    | ⟨0, _⟩ =>
      show p.val = if A = 1 then 0 else p.val
      split
      · have := p.isLt; omega
      · rfl
    | ⟨1, _⟩ => show g.val = if (32 : Nat) = 1 then 0 else g.val; rw [if_neg (by decide)]
    | ⟨2, _⟩ => show (0 : Nat) = if (1 : Nat) = 1 then 0 else l.val; rw [if_pos rfl])]
  refine shapeCast_apply s h2 _ _ ?_
  rw [Shape.rowMajor_val_three, Shape.rowMajor_val_two]
  show p.val * 32 + g.val = (p.val * 32 + g.val) * 1 + 0
  omega

/-- The kernel's way: a row-block cut into groups, multiplied by its scales spread along the group, laid flat — with
    the changes of float format on the way, which are the identity on the values. Entry (p, k) is x (p, k) · s (p, k / 128). -/
theorem scaleGrouped_apply (x : FVec Ideal ⟨2, ![A, 4096]⟩ .bf16) (s : FVec Ideal ⟨2, ![A, 32]⟩ .f32)
    (hb : FTy.bf16.bits < FTy.f32.bits)
    (h0 : (⟨2, ![A, 4096]⟩ : Shape).ShapeCasts ⟨2, ![A, 4096]⟩)
    (h1 : (⟨2, ![A, 4096]⟩ : Shape).ShapeCasts ⟨3, ![A, 32, 128]⟩)
    (h2 : (⟨2, ![A, 32]⟩ : Shape).ShapeCasts ⟨3, ![A, 32, 1]⟩)
    (h3 : (⟨3, ![A, 32, 1]⟩ : Shape).Broadcasts ⟨3, ![A, 32, 128]⟩)
    (h4 : (⟨3, ![A, 32, 128]⟩ : Shape).ShapeCasts ⟨2, ![A, 4096]⟩) (p : Fin A) (k : Fin 4096) :
    (truncf .bf16 (shapeCast ⟨2, ![A, 4096]⟩
        (mulf (shapeCast ⟨3, ![A, 32, 128]⟩ (extf .f32 (shapeCast ⟨2, ![A, 4096]⟩ x h0) hb) h1)
          (broadcastTo ⟨3, ![A, 32, 128]⟩ (shapeCast ⟨3, ![A, 32, 1]⟩ s h2) h3)) h4) hb : FVec Ideal ⟨2, ![A, 4096]⟩ .bf16) (ix2 p k)
      = x (ix2 p k) * s (ix2 p (grp k)) := by
  rw [truncf_apply, flat_apply, mulf_apply, spread_unit_apply, shapeCast_self]
  exact congrArg (· * s (ix2 p (grp k))) (split_apply (extf .f32 x hb) h1 p k)

/-- The reference's way: the scales repeated along a new last axis of 128 and laid flat to [A × 4096]. Entry (p, k) is
    the scale (p, k / 128). -/
theorem repeatLanes_apply {α : Type} (s : (⟨2, ![A, 32]⟩ : Shape).Idx → α)
    (hb : (⟨2, ![A, 32]⟩ : Shape).BroadcastsInDim ⟨3, ![A, 32, 128]⟩ ![0, 1])
    (h4 : (⟨3, ![A, 32, 128]⟩ : Shape).ShapeCasts ⟨2, ![A, 4096]⟩) (p : Fin A) (k : Fin 4096) :
    shapeCast ⟨2, ![A, 4096]⟩ (broadcastInDim ⟨3, ![A, 32, 128]⟩ ![0, 1] hb s) h4 (ix2 p k) = s (ix2 p (grp k)) := by
  rw [flat_apply]
  refine broadcastInDim_apply _ hb s _ _ (fun a => ?_)
  match a with
  | ⟨0, _⟩ =>
    show p.val = if A = 1 then 0 else p.val
    split
    · have := p.isLt; omega
    · rfl
  | ⟨1, _⟩ => show (grp k).val = if (32 : Nat) = 1 then 0 else (grp k).val; rw [if_neg (by decide)]

/-- The weight scales given to every row of their group of 128 rows: [32 × 32] repeated along a new middle axis of 128
    and laid flat to [4096 × 32]. Entry (n, g) is the scale (n / 128, g). -/
theorem repeatRows_apply {α : Type} (s : (⟨2, ![32, 32]⟩ : Shape).Idx → α)
    (hb : (⟨2, ![32, 32]⟩ : Shape).BroadcastsInDim ⟨3, ![32, 128, 32]⟩ ![0, 2])
    (h4 : (⟨3, ![32, 128, 32]⟩ : Shape).ShapeCasts ⟨2, ![4096, 32]⟩) (n : Fin 4096) (g : Fin 32) :
    shapeCast ⟨2, ![4096, 32]⟩ (broadcastInDim ⟨3, ![32, 128, 32]⟩ ![0, 2] hb s) h4 (ix2 n g) = s (ix2 (grp n) g) := by
  rw [shapeCast_apply _ h4 (ix2 n g) (ix3 (grp n) (lane n) g) (by
    rw [Shape.rowMajor_val_three, Shape.rowMajor_val_two]
    show (n.val / 128 * 128 + n.val % 128) * 32 + g.val = n.val * 32 + g.val
    omega)]
  refine broadcastInDim_apply _ hb s _ _ (fun a => ?_)
  match a with
  | ⟨0, _⟩ => show (grp n).val = if (32 : Nat) = 1 then 0 else (grp n).val; rw [if_neg (by decide)]
  | ⟨1, _⟩ => show g.val = if (32 : Nat) = 1 then 0 else g.val; rw [if_neg (by decide)]

end Cert.BlockScale

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.BlockValue.lean ====
/-
  The kernel body's result, entry by entry.

  At a grid point the body holds a block of 512 rows of x with their scales and a block of 256 rows of w with the
  scales of those rows (the weight scales already given to every row of their group). It scales both blocks group by
  group along the shared axis and contracts them along it. Entry (p, q) of what it stores is

      ∑ k < 4096,  (x₀ (p, k) · s₀ (p, k / 128)) · (w₀ (q, k) · t₀ (q, k / 128)).
-/
import proofs.«161429_j2886218023303_1_alg».proof.Proof.Gen.KernelIdeal.Skeleton
import proofs.«161429_j2886218023303_1_alg».proof.Proof.BlockScale
import proofs.«161429_j2886218023303_1_alg».proof.Proof.LibDotRows

noncomputable section

open scoped BigOperators

namespace Cert.KernelIdeal.BlockValue

open Cert.KernelIdeal Cert.KernelIdeal.Gen Idealize.ShloMosaic Idealize.ShloMosaic.ValueIdx Cert.BlockScale

/-- The body's contraction keeps the rows of both blocks and sums over the shared second axis. -/
theorem rowsRows : Cert.Lib.DotRows.RowsRows dot_S512x4096_S256x4096_S512x256_1_1_0_0_n_n :=
  ⟨rfl, rfl, rfl, rfl, rfl, rfl⟩

/-- What the body stores, at entry (p, q), from the four blocks it loads. -/
theorem payload_apply (x0 : Vec Ideal S512x4096 .bf16) (x1 : Vec Ideal S512x32 .f32) (x2 : Vec Ideal S256x4096 .bf16)
    (x3 : Vec Ideal S256x32 .f32) (p : Fin 512) (q : Fin 256) :
    k0_pay1 (F := Ideal) x0 x1 x2 x3 (ix2 p q)
      = ∑ k : Fin 4096, (x0 (ix2 p k) * x1 (ix2 p (grp k))) * (x2 (ix2 q k) * x3 (ix2 q (grp k))) := by
  unfold k0_pay1
  rw [truncf_apply]
  refine (rowsRows.matmul_zero_apply none _ _ (ix2 p q)).trans ?_
  refine Finset.sum_congr rfl fun k _ => ?_
  refine congrArg₂ (· * ·) (scaleGrouped_apply x0 x1 _ _ _ _ _ _ p k) ?_
  refine (scaleGrouped_apply x2 _ _ _ _ _ _ _ q k).trans ?_
  rw [shapeCast_self]

end Cert.KernelIdeal.BlockValue

end
-- ==== Proof.ArrayValue.lean ====
/-
  The kernel's result array: the block-scaled product of the arguments.

  The grid has 8 × 16 points. Point (a, b) holds rows 512 a … 512 a + 511 of x and of its scales, rows 256 b … 256 b + 255
  of w and of the weight scales given to every row of their group, all with the whole shared axis, and writes the
  [512 × 256] block (a, b) of the result. An entry (p, q) of that block is the body's sum over the shared axis, which is
  the block-scaled product at (512 a + p, 256 b + q): the group of row 256 b + q of w is (256 b + q) / 128. The 128
  blocks tile the [4096 × 4096] result, so the array ends holding the product everywhere.
-/
import proofs.«161429_j2886218023303_1_alg».proof.Proof.Gen.KernelIdeal.Value
import proofs.«161429_j2886218023303_1_alg».proof.Proof.BlockValue
import Idealize.ShloMosaic.Lib.StableHlo.Run

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo Cert.BlockScale
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

/-- The narrowed copy of x holds the values of x. -/
theorem V_x (c : Dev nD) : (V m c main_v0 : S4096x4096.Idx → EReal) = m ((c : Thread nD τ).loc main_arg0) := by
  dsimp only [Gen.V, Gen.hostOps0]; after_results; rfl

/-- The narrowed copy of w holds the values of w. -/
theorem V_w (c : Dev nD) : (V m c main_v1 : S4096x4096.Idx → EReal) = m ((c : Thread nD τ).loc main_arg2) := by
  dsimp only [Gen.V, Gen.hostOps0]; after_results; rfl

/-- The expanded weight scales: the [32 × 32] scales repeated over a middle axis of 128 and laid flat to [4096 × 32]. -/
theorem V_ws (c : Dev nD) : (V m c main_v3 : S4096x32.Idx → EReal)
    = shapeCast S4096x32 (broadcastInDim S32x128x32 ![0, 2] bcast_S32x32_S32x128x32_0_2 (m ((c : Thread nD τ).loc main_arg3)))
        shapeCasts_S32x128x32_S4096x32 := by
  dsimp only [Gen.V, Gen.hostOps0]; after_results; rfl

/-! ## The index maps over the grid -/

/-- The row blocks of x and of its scales move with the result's row blocks, the row blocks of w and of its scales with
    the result's column blocks, and every input block spans the whole shared axis. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (1 : Fin 2) ∧ win0_2.index t (1 : Fin 2) = 0
    ∧ win0_3.index t (0 : Fin 2) = win0_4.index t (1 : Fin 2) ∧ win0_3.index t (1 : Fin 2) = 0
    ∧ win0_4.index t (0 : Fin 2) ≤ 7 ∧ win0_4.index t (1 : Fin 2) ≤ 15 :=
  (by decide +kernel : ∀ t : Fin grid0.N, _)

/-- Every block (a, b) of the result is some point's. -/
theorem idx_onto : ∀ (a : Fin 8) (b : Fin 16), ∃ t : Fin cfg0.N, win0_4.index t = ![a.val, b.val] :=
  (by decide +kernel : ∀ (a : Fin 8) (b : Fin 16), ∃ t : Fin grid0.N, win0_4.index t = ![a.val, b.val])

/-! ## The blocks a point reads, entry by entry -/

/-- Entry (p, k) of the x block at a point is x at row 512 a + p. -/
theorem xblk_apply (c : Dev nD) (t : Fin cfg0.N) (p : Fin 512) (k : Fin 4096) (r : Fin 4096)
    (hr : r.val = win0_4.index t (0 : Fin 2) * 512 + p.val) :
    iblk m c 0 t (ix2 p k) = m ((c : Thread nD τ).loc main_arg0) (ix2 r k) := by
  obtain ⟨e0, e1, -⟩ := idx_facts t
  show V m c main_v0 (((cfg0.win 0).blk t).view.emb (ix2 p k)) = _
  rw [V_x]
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- Entry (p, g) of the block of activation scales at a point is the scale at row 512 a + p. -/
theorem xsblk_apply (c : Dev nD) (t : Fin cfg0.N) (p : Fin 512) (g : Fin 32) (r : Fin 4096)
    (hr : r.val = win0_4.index t (0 : Fin 2) * 512 + p.val) :
    iblk m c 1 t (ix2 p g) = m ((c : Thread nD τ).loc main_arg1) (ix2 r g) := by
  obtain ⟨-, -, e0, e1, -⟩ := idx_facts t
  show V m c main_arg1 (((cfg0.win 1).blk t).view.emb (ix2 p g)) = _
  rw [V_main_arg1]
  refine congrArg _ (funext fun a => Fin.ext ?_)
  match a with
  | ⟨0, _⟩ => show win0_1.index t (0 : Fin 2) * 512 + 1 * p.val = r.val; omega
  | ⟨1, _⟩ => show win0_1.index t (1 : Fin 2) * 32 + 1 * g.val = g.val; omega

/-- Entry (q, k) of the w block at a point is w at row 256 b + q. -/
theorem wblk_apply (c : Dev nD) (t : Fin cfg0.N) (q : Fin 256) (k : Fin 4096) (v : Fin 4096)
    (hv : v.val = win0_4.index t (1 : Fin 2) * 256 + q.val) :
    iblk m c 2 t (ix2 q k) = m ((c : Thread nD τ).loc main_arg2) (ix2 v k) := by
  obtain ⟨-, -, -, -, e0, e1, -⟩ := idx_facts t
  show V m c main_v1 (((cfg0.win 2).blk t).view.emb (ix2 q k)) = _
  rw [V_w]
  refine congrArg _ (funext fun a => Fin.ext ?_)
  match a with
  | ⟨0, _⟩ => show win0_2.index t (0 : Fin 2) * 256 + 1 * q.val = v.val; omega
  | ⟨1, _⟩ => show win0_2.index t (1 : Fin 2) * 4096 + 1 * k.val = k.val; omega

/-- Entry (q, g) of the block of expanded weight scales at a point is the scale of the group of row 256 b + q. -/
theorem wsblk_apply (c : Dev nD) (t : Fin cfg0.N) (q : Fin 256) (g : Fin 32) (v : Fin 4096)
    (hv : v.val = win0_4.index t (1 : Fin 2) * 256 + q.val) :
    iblk m c 3 t (ix2 q g) = m ((c : Thread nD τ).loc main_arg3) (ix2 (grp v) g) := by
  obtain ⟨-, -, -, -, -, -, e0, e1, -⟩ := idx_facts t
  show V m c main_v3 (((cfg0.win 3).blk t).view.emb (ix2 q g)) = _
  rw [V_ws]
  refine Eq.trans (congrArg _ (funext fun a => Fin.ext ?_)) (repeatRows_apply _ _ _ v g)
  match a with
  | ⟨0, _⟩ => show win0_3.index t (0 : Fin 2) * 256 + 1 * q.val = v.val; omega
  | ⟨1, _⟩ => show win0_3.index t (1 : Fin 2) * 32 + 1 * g.val = g.val; omega

/-! ## What a point writes back -/

/-- Point `t` writes back block `t` of the block-scaled product of the arguments. -/
theorem flushed_eq (c : Dev nD) (t : Fin cfg0.N) :
    (dats m 0 c).flushed 4 t = ((cfg0.win 4).blk t).view.read (Elt Ideal)
      (scaledProduct (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero hz]
  simp only [View.ld_unit_zero (S := S512x4096) hz, View.ld_unit_zero (S := S512x32) hz,
    View.ld_unit_zero (S := S256x4096) hz, View.ld_unit_zero (S := S256x32) hz]
  funext j
  obtain ⟨p, q, rfl⟩ : ∃ (p : Fin 512) (q : Fin 256), j = ix2 p q := ⟨j 0, j 1, eq_ix2 j⟩
  show k0_pay1 (F := Ideal) (iblk m c 0 t) (iblk m c 1 t) (iblk m c 2 t) (iblk m c 3 t) (ix2 p q)
    = scaledProduct _ _ _ _ (((cfg0.win 4).blk t).view.emb (ix2 p q))
  refine (Cert.KernelIdeal.BlockValue.payload_apply (iblk m c 0 t) (iblk m c 1 t) (iblk m c 2 t) (iblk m c 3 t) p q).trans ?_
  unfold scaledProduct
  have h0 : ((((cfg0.win 4).blk t).view.emb (ix2 p q)) 0).val = win0_4.index t (0 : Fin 2) * 512 + p.val := by
    show win0_4.index t (0 : Fin 2) * 512 + 1 * p.val = _; omega
  have h1 : ((((cfg0.win 4).blk t).view.emb (ix2 p q)) 1).val = win0_4.index t (1 : Fin 2) * 256 + q.val := by
    show win0_4.index t (1 : Fin 2) * 256 + 1 * q.val = _; omega
  refine Finset.sum_congr rfl fun k _ => ?_
  exact congrArg₂ (· * ·)
    (congrArg₂ (· * ·) (xblk_apply m c t p k _ h0) (xsblk_apply m c t p (grp k) _ h0))
    (congrArg₂ (· * ·) (wblk_apply m c t q k _ h1) (wsblk_apply m c t q (grp k) _ h1))

/-! ## The blocks tile the result -/

/-- An index of the result is in point `t`'s block iff each coordinate is in the block's range on its axis. -/
theorem mem_blk (t : Fin cfg0.N) (i : S4096x4096.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v4).slice (win0_4.rect t)).set ↔ _
  rw [View.set_slice_whole, Rect.mem_set_unit]
  exact Iff.rfl

/-- Entry (r, v) lies in block (r / 512, v / 256). -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 256 ≤ (i 1).val ∧ (i 1).val < win0_4.index t (1 : Fin 2) * 256 + 256
    omega

/-- The result array after the run is the block-scaled product of the arguments. -/
theorem final (c : Dev nD) :
    (dats m 0 c).arrAt 4 cfg0.N = scaledProduct (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) cover

/-- The kernel's run: it ends with the result at the block-scaled product and the arguments unchanged. -/
theorem run : θ_run defs (onTc (τ := τ) (main (F := Ideal))) ⟨m, fun _ => 0, ρ⟩ fun r => ∀ c : Dev nD,
      r.2.mem ((c : Thread nD τ).loc main_v4) = scaledProduct (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.RefValue.lean ====
/-
  The reference, read entry by entry: its result is the block-scaled product.

  The reference repeats the activation scales along the shared axis, multiplies, repeats the weight scales first over
  their group of 128 rows and then along the shared axis, multiplies, and contracts the two [4096 × 4096] arrays along
  their second axes. Entry (r, v) of the contraction is the sum over k of the two products at (r, k) and (v, k), and
  each repeated scale array at (·, k) is the scale of group k / 128.
-/
import proofs.«161429_j2886218023303_1_alg».proof.Proof.Gen.ReferenceIdeal.Read
import proofs.«161429_j2886218023303_1_alg».proof.Proof.BlockScale
import proofs.«161429_j2886218023303_1_alg».proof.Proof.LibDotRows

noncomputable section

open scoped BigOperators

namespace Cert.ReferenceIdeal.RefValue

open Cert.ReferenceIdeal Cert.ReferenceIdeal.Gen Idealize.ShloMosaic Idealize.ShloMosaic.ValueIdx Cert.BlockScale

/-- The contraction keeps the left rows and the right rows and sums over the shared second axis. -/
theorem rowsRows : Cert.Lib.DotRows.RowsRows dot_S4096x4096_S4096x4096_S4096x4096_1_1_0_0_n_n :=
  ⟨rfl, rfl, rfl, rfl, rfl, rfl⟩

/-- The reference's result term is the block-scaled product of its four arguments. -/
theorem result_eq (x : FVec Ideal S4096x4096 .f32) (xs : FVec Ideal S4096x32 .f32) (w : FVec Ideal S4096x4096 .f32)
    (ws : FVec Ideal S32x32 .f32) :
    truncf .bf16 (Host.dotGeneral (F := Ideal) dot_S4096x4096_S4096x4096_S4096x4096_1_1_0_0_n_n none
        (mulf x (shapeCast _ (broadcastInDim S4096x32x128 ![0, 1] bcast_S4096x32_S4096x32x128_0_1 xs) shapeCasts_S4096x32x128_S4096x4096))
        (mulf w (shapeCast _ (broadcastInDim S4096x32x128 ![0, 1] bcast_S4096x32_S4096x32x128_0_1
          (shapeCast _ (broadcastInDim S32x128x32 ![0, 2] bcast_S32x32_S32x128x32_0_2 ws) shapeCasts_S32x128x32_S4096x32))
          shapeCasts_S4096x32x128_S4096x4096))) bitsLt_bf16_f32
      = scaledProduct x xs w ws := by
  funext i
  obtain ⟨r, v, rfl⟩ : ∃ (r v : Fin 4096), i = ix2 r v := ⟨i 0, i 1, eq_ix2 i⟩
  rw [truncf_apply]
  refine (rowsRows.dotGeneral_apply none _ _ (ix2 r v)).trans ?_
  unfold scaledProduct
  refine Finset.sum_congr rfl fun k _ => ?_
  show (mulf x _) (ix2 r k) * (mulf w _) (ix2 v k)
    = x (ix2 r k) * xs (ix2 r (grp k)) * (w (ix2 v k) * ws (ix2 (grp v) (grp k)))
  rw [mulf_apply, mulf_apply, repeatLanes_apply, repeatLanes_apply, repeatRows_apply]

end Cert.ReferenceIdeal.RefValue

end
-- ==== Proof.lean ====
/-
  The certificate of the block-scaled product kernel.

  Both programs compute, at the ideal values, the entry (r, v)

      ∑ k < 4096,  (x (r, k) · xs (r, k / 128)) · (w (v, k) · ws (v / 128, k / 128))

  of a [4096 × 4096] result: the kernel block by block over an 8 × 16 grid, each point contracting 512 scaled rows of x
  with 256 scaled rows of w over the whole shared axis; the reference by scaling the two whole arrays and contracting
  them once. The changes of float format on either side are the identity on the values, and the two sums have the same
  terms in the same order, so no property of the inputs beyond the statement's own is used.

  The three frames are the kernels' runs with the result forgotten and the reference's run; the idealization rewrote
  no operation, so there is nothing to preserve.
-/
import proofs.«161429_j2886218023303_1_alg».proof.Defs
import proofs.«161429_j2886218023303_1_alg».proof.Proof.Gen.Kernel
import proofs.«161429_j2886218023303_1_alg».proof.Proof.Gen.Kernel.Skeleton
import proofs.«161429_j2886218023303_1_alg».proof.Proof.Gen.Kernel.Launch
import proofs.«161429_j2886218023303_1_alg».proof.Proof.Gen.Kernel.Points
import proofs.«161429_j2886218023303_1_alg».proof.Proof.Gen.Kernel.Frame
import proofs.«161429_j2886218023303_1_alg».proof.Proof.Gen.KernelIdeal
import proofs.«161429_j2886218023303_1_alg».proof.Proof.Gen.KernelIdeal.Skeleton
import proofs.«161429_j2886218023303_1_alg».proof.Proof.Gen.KernelIdeal.Launch
import proofs.«161429_j2886218023303_1_alg».proof.Proof.Gen.KernelIdeal.Points
import proofs.«161429_j2886218023303_1_alg».proof.Proof.Gen.KernelIdeal.Frame
import proofs.«161429_j2886218023303_1_alg».proof.Proof.Gen.ReferenceIdeal
import proofs.«161429_j2886218023303_1_alg».proof.Proof.Gen.Pre_finite_inputs
import proofs.«161429_j2886218023303_1_alg».proof.Proof.Gen.KernelIdeal.Value
import proofs.«161429_j2886218023303_1_alg».proof.Proof.Gen.ReferenceIdeal.Run
import proofs.«161429_j2886218023303_1_alg».proof.Proof.Gen.ReferenceIdeal.Read
import proofs.«161429_j2886218023303_1_alg».proof.Proof.ArrayValue
import proofs.«161429_j2886218023303_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the block-scaled product of the arguments, which agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.result_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
